-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x128x32 : Shape := ⟨3, ![512, 128, 32]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x128x32 : S_.BroadcastsInDim S512x128x32 (![] : Fin 0 → Fin S512x128x32.rank)
  reducesTo_S512x128x32_S_d0_1_2 : S512x128x32.ReducesTo [0, 1, 2] S_

variable [Facts]

def fn {F : FTy → Type} [FloatOps F] (main_arg0 : FVec F S128x512 .f32) (main_arg1 : FVec F S512x128x32 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x128x32 .f32 := Host.absf main_arg1
  let main_cst_0 : FVec F S_ .f32 := constant S_ .f32 0x7F800000#32
  let main_v5 : FVec F S512x128x32 .f32 := broadcastInDim S512x128x32 ![] bcast_S_S512x128x32 main_cst_0
  let main_v6 : IVec S512x128x32 1 := cmpf .olt main_v4 main_v5
  let main_c_1 : IVec S_ 1 := constantI S_ 1 1#1
  let main_v7 : IVec S_ 1 := (fun x v => Host.reduce IntOp.andi x v reducesTo_S512x128x32_S_d0_1_2 h_S_) main_v6 main_c_1
  let main_v8 : IVec S_ 1 := andi main_v3 main_v7
  main_v8
-- ==== Kernel.lean ====
abbrev S128x512 : Shape := ⟨2, ![128, 512]⟩
abbrev S512x128x32 : Shape := ⟨3, ![512, 128, 32]⟩
abbrev S512x4096 : Shape := ⟨2, ![512, 4096]⟩
abbrev S128x128 : Shape := ⟨2, ![128, 128]⟩
abbrev S512x1024 : Shape := ⟨2, ![512, 1024]⟩
abbrev S32x128 : Shape := ⟨2, ![32, 128]⟩
abbrev S128x1024 : Shape := ⟨2, ![128, 1024]⟩
abbrev S1024x128 : Shape := ⟨2, ![1024, 128]⟩
abbrev S32x32x128 : Shape := ⟨3, ![32, 32, 128]⟩
abbrev S32x128x128 : Shape := ⟨3, ![32, 128, 128]⟩
abbrev S32x1x128 : Shape := ⟨3, ![32, 1, 128]⟩
abbrev S32x128x1 : Shape := ⟨3, ![32, 128, 1]⟩
abbrev S128x640 : Shape := ⟨2, ![128, 640]⟩

abbrev nBuf : Space → Nat
  | .hbm => 8
  | .vmem => 5
  | .smem => 0
  | _ => 0

abbrev bufTy : (tb : Table) → Fin (tcTables nBuf tb) → BufTy
  | .hbm, ⟨0, _⟩ => ⟨S128x512, .f32⟩
  | .hbm, ⟨1, _⟩ => ⟨S512x128x32, .f32⟩
  | .hbm, ⟨2, _⟩ => ⟨S128x512, .bf16⟩
  | .hbm, ⟨3, _⟩ => ⟨S512x4096, .f32⟩
  | .hbm, ⟨4, _⟩ => ⟨S512x4096, .bf16⟩
  | .hbm, ⟨5, _⟩ => ⟨S128x128, .f32⟩
  | .hbm, ⟨6, _⟩ => ⟨S128x128, .f32⟩
  | .hbm, ⟨7, _⟩ => ⟨S128x640, .f32⟩
  | .local _ .vmem, ⟨0, _⟩ => ⟨S128x512, .bf16⟩
  | .local _ .vmem, ⟨1, _⟩ => ⟨S512x1024, .bf16⟩
  | .local _ .vmem, ⟨2, _⟩ => ⟨S512x1024, .bf16⟩
  | .local _ .vmem, ⟨3, _⟩ => ⟨S32x128, .f32⟩
  | .local _ .vmem, ⟨4, _⟩ => ⟨S32x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  shapeCasts_S512x128x32_S512x4096 : S512x128x32.ShapeCasts S512x4096
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S128x1024_p1_0_S1024x128 : S128x1024.Transposes [1, 0] S1024x128
  shapeCasts_S1024x128_S32x32x128 : S1024x128.ShapeCasts S32x32x128
  slices_S32x32x128_o0_0_0_S32x1x128 : S32x32x128.Slices ![0, 0, 0] S32x1x128
  shapeCasts_S32x1x128_S32x128 : S32x1x128.ShapeCasts S32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  slices_S32x32x128_o0_1_0_S32x1x128 : S32x32x128.Slices ![0, 1, 0] S32x1x128
  slices_S32x32x128_o0_2_0_S32x1x128 : S32x32x128.Slices ![0, 2, 0] S32x1x128
  slices_S32x32x128_o0_3_0_S32x1x128 : S32x32x128.Slices ![0, 3, 0] S32x1x128
  slices_S32x32x128_o0_4_0_S32x1x128 : S32x32x128.Slices ![0, 4, 0] S32x1x128
  slices_S32x32x128_o0_5_0_S32x1x128 : S32x32x128.Slices ![0, 5, 0] S32x1x128
  slices_S32x32x128_o0_6_0_S32x1x128 : S32x32x128.Slices ![0, 6, 0] S32x1x128
  slices_S32x32x128_o0_7_0_S32x1x128 : S32x32x128.Slices ![0, 7, 0] S32x1x128
  slices_S32x32x128_o0_8_0_S32x1x128 : S32x32x128.Slices ![0, 8, 0] S32x1x128
  slices_S32x32x128_o0_9_0_S32x1x128 : S32x32x128.Slices ![0, 9, 0] S32x1x128
  slices_S32x32x128_o0_10_0_S32x1x128 : S32x32x128.Slices ![0, 10, 0] S32x1x128
  slices_S32x32x128_o0_11_0_S32x1x128 : S32x32x128.Slices ![0, 11, 0] S32x1x128
  slices_S32x32x128_o0_12_0_S32x1x128 : S32x32x128.Slices ![0, 12, 0] S32x1x128
  slices_S32x32x128_o0_13_0_S32x1x128 : S32x32x128.Slices ![0, 13, 0] S32x1x128
  slices_S32x32x128_o0_14_0_S32x1x128 : S32x32x128.Slices ![0, 14, 0] S32x1x128
  slices_S32x32x128_o0_15_0_S32x1x128 : S32x32x128.Slices ![0, 15, 0] S32x1x128
  slices_S32x32x128_o0_16_0_S32x1x128 : S32x32x128.Slices ![0, 16, 0] S32x1x128
  slices_S32x32x128_o0_17_0_S32x1x128 : S32x32x128.Slices ![0, 17, 0] S32x1x128
  slices_S32x32x128_o0_18_0_S32x1x128 : S32x32x128.Slices ![0, 18, 0] S32x1x128
  slices_S32x32x128_o0_19_0_S32x1x128 : S32x32x128.Slices ![0, 19, 0] S32x1x128
  slices_S32x32x128_o0_20_0_S32x1x128 : S32x32x128.Slices ![0, 20, 0] S32x1x128
  slices_S32x32x128_o0_21_0_S32x1x128 : S32x32x128.Slices ![0, 21, 0] S32x1x128
  slices_S32x32x128_o0_22_0_S32x1x128 : S32x32x128.Slices ![0, 22, 0] S32x1x128
  slices_S32x32x128_o0_23_0_S32x1x128 : S32x32x128.Slices ![0, 23, 0] S32x1x128
  slices_S32x32x128_o0_24_0_S32x1x128 : S32x32x128.Slices ![0, 24, 0] S32x1x128
  slices_S32x32x128_o0_25_0_S32x1x128 : S32x32x128.Slices ![0, 25, 0] S32x1x128
  slices_S32x32x128_o0_26_0_S32x1x128 : S32x32x128.Slices ![0, 26, 0] S32x1x128
  slices_S32x32x128_o0_27_0_S32x1x128 : S32x32x128.Slices ![0, 27, 0] S32x1x128
  slices_S32x32x128_o0_28_0_S32x1x128 : S32x32x128.Slices ![0, 28, 0] S32x1x128
  slices_S32x32x128_o0_29_0_S32x1x128 : S32x32x128.Slices ![0, 29, 0] S32x1x128
  slices_S32x32x128_o0_30_0_S32x1x128 : S32x32x128.Slices ![0, 30, 0] S32x1x128
  slices_S32x32x128_o0_31_0_S32x1x128 : S32x32x128.Slices ![0, 31, 0] S32x1x128
  reduces_S32x128x128_S32x128 : S32x128x128.Reduces [1] S32x128
  inb_S32x128_S32x128_0_0 : ∀ a, (![0, 0] : Fin 2 → Nat) a + S32x128.size a ≤ S32x128.size a
  h_S32x128 : 0 < S32x128.numel
  transposes_S128x128_S128x128_1_0 : S128x128.Transposes [1, 0] S128x128
  concatenates_S128x512_S128x128_S128x640_d1 : Shape.Concatenates [S128x512, S128x128] S128x640 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .bf16 = 32 ∨ (Rect.block (s := S128x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .bf16 = 32 ∨ (Rect.block (s := S512x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S128x128.size a
  hwx0_2 : ∀ i : grid0.Coords, EltTy.bits .f32 = 32 ∨ (Rect.block (s := S128x128) S32x128.size (cc0_transform_2 i) (hinb0_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_v0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512 : Shape := ⟨2, ![128, 512]⟩
abbrev S512x128x32 : Shape := ⟨3, ![512, 128, 32]⟩
abbrev S512x4096 : Shape := ⟨2, ![512, 4096]⟩
abbrev S128x4096 : Shape := ⟨2, ![128, 4096]⟩
abbrev S128x128x32 : Shape := ⟨3, ![128, 128, 32]⟩
abbrev S1x128x128x32 : Shape := ⟨4, ![1, 128, 128, 32]⟩
abbrev S128x1x128x32 : Shape := ⟨4, ![128, 1, 128, 32]⟩
abbrev S128x128x128x32 : Shape := ⟨4, ![128, 128, 128, 32]⟩
abbrev S_ : Shape := ⟨0, ![]⟩
abbrev S128x128x128 : Shape := ⟨3, ![128, 128, 128]⟩
abbrev S128x128 : Shape := ⟨2, ![128, 128]⟩
abbrev S128x640 : Shape := ⟨2, ![128, 640]⟩

abbrev nBuf : Space → Nat
  | .hbm => 21
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S512x128x32, .f32⟩
  | .hbm, ⟨2, _⟩ => ⟨S512x4096, .f32⟩
  | .hbm, ⟨3, _⟩ => ⟨S128x4096, .f32⟩
  | .hbm, ⟨4, _⟩ => ⟨S128x128x32, .f32⟩
  | .hbm, ⟨5, _⟩ => ⟨S1x128x128x32, .f32⟩
  | .hbm, ⟨6, _⟩ => ⟨S128x1x128x32, .f32⟩
  | .hbm, ⟨7, _⟩ => ⟨S128x128x128x32, .f32⟩
  | .hbm, ⟨8, _⟩ => ⟨S128x128x128x32, .f32⟩
  | .hbm, ⟨9, _⟩ => ⟨S128x128x128x32, .f32⟩
  | .hbm, ⟨10, _⟩ => ⟨S128x128x128x32, .f32⟩
  | .hbm, ⟨11, _⟩ => ⟨S_, .f32⟩
  | .hbm, ⟨12, _⟩ => ⟨S128x128x128, .f32⟩
  | .hbm, ⟨13, _⟩ => ⟨S128x128x128, .f32⟩
  | .hbm, ⟨14, _⟩ => ⟨S128x128x128, .f32⟩
  | .hbm, ⟨15, _⟩ => ⟨S_, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x640, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x128x32_S512x4096 : S512x128x32.ShapeCasts S512x4096
  shapeCasts_S128x4096_S128x128x32 : S128x4096.ShapeCasts S128x128x32
  bcast_S128x128x32_S1x128x128x32_1_2_3 : S128x128x32.BroadcastsInDim S1x128x128x32 (![1, 2, 3] : Fin 3 → Fin S1x128x128x32.rank)
  bcast_S128x128x32_S128x1x128x32_0_2_3 : S128x128x32.BroadcastsInDim S128x1x128x32 (![0, 2, 3] : Fin 3 → Fin S128x1x128x32.rank)
  bcast_S1x128x128x32_S128x128x128x32_0_1_2_3 : S1x128x128x32.BroadcastsInDim S128x128x128x32 (![0, 1, 2, 3] : Fin 4 → Fin S128x128x128x32.rank)
  bcast_S128x1x128x32_S128x128x128x32_0_1_2_3 : S128x1x128x32.BroadcastsInDim S128x128x128x32 (![0, 1, 2, 3] : Fin 4 → Fin S128x128x128x32.rank)
  reducesTo_S128x128x128x32_S128x128x128_d3 : S128x128x128x32.ReducesTo [3] S128x128x128
  h_S_ : 0 < S_.numel
  reducesTo_S128x128x128_S128x128_d0 : S128x128x128.ReducesTo [0] S128x128
  bcast_S_S128x128 : S_.BroadcastsInDim S128x128 (![] : Fin 0 → Fin S128x128.rank)
  concatenates_S128x512_S128x128_S128x640_d1 : Shape.Concatenates [S128x512, S128x128] S128x640 1
  dot_S128x512_S512x4096_S128x4096_1_0_0_1_n_n_wf : DotDims.WF S128x512 S512x4096 S128x4096 [1] [0] [0] [1] [] []

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

class Facts : Prop extends Facts₀ where

variable [Facts]
-- ==== Proof.Gap.lean ====
/-
  The distance of two extended reals as both programs take it, and the two facts about it that join the programs:
  it is symmetric (the kernel subtracts row i's projection from row j's, the reference the other way round), and
  thirty-two of them added one at a time from zero are their sum over the thirty-two kernel coordinates.
-/
import Idealize.ShloMosaic.PureOps.Ideal
import Idealize.ShloMosaic.PureOps.Ideal.Laws

noncomputable section

open scoped BigOperators
open Idealize.ShloMosaic

namespace Cert.Pairwise

/-- |p − q| on the extended reals: the larger of the difference and its negation (what the absolute value of a
    difference is at the ideal values). -/
def gap (p q : EReal) : EReal := max (p - q) (-(p - q))

/-- The absolute value of a difference, at the ideal values, is `gap`. -/
theorem absf_subf (p q : Ideal .f32) : FloatOps.absf (FloatOps.subf p q) = gap p q := rfl

/-- The distance is symmetric at every pair of extended reals, the infinities included: for two reals the negated
    difference is the difference the other way round; with an infinity on either side both orders give `⊤`. -/
theorem gap_comm (p q : EReal) : gap p q = gap q p := by
  unfold gap
  induction p using EReal.rec with
  | bot =>
    induction q using EReal.rec with
    | bot => rfl
    | coe b => simp [EReal.bot_sub, EReal.coe_sub_bot]
    | top => simp [EReal.bot_sub, EReal.sub_bot]
  | coe a =>
    induction q using EReal.rec with
    | bot => simp [EReal.bot_sub, EReal.coe_sub_bot]
    | coe b =>
      rw [← EReal.coe_sub, ← EReal.coe_sub, ← EReal.coe_neg, ← EReal.coe_neg, neg_sub, neg_sub, max_comm]
    | top => simp [EReal.sub_top, EReal.top_sub_coe]
  | top =>
    induction q using EReal.rec with
    | bot => simp [EReal.bot_sub, EReal.sub_bot]
    | coe b => simp [EReal.sub_top, EReal.top_sub_coe]
    | top => rfl

/-- Thirty-two terms added one at a time, from zero, are their sum. -/
theorem sum32 (f : Fin 32 → EReal) :
    0 + f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 + f 31
      = ∑ k : Fin 32, f k := by
  simp only [Fin.sum_univ_succ, Fin.sum_univ_zero, zero_add, add_zero]
  simp only [add_assoc]
  rfl

end Cert.Pairwise

end
-- ==== Proof.PairStep.lean ====
/-
  One kernel coordinate's contribution to the pairwise distance, read at an entry.

  The chunk's projections are held as feature × kernel coordinate × row. For kernel coordinate `n` the body takes the
  feature × row matrix at `n`, lays it once along the second row axis (entry (c, i, j) reads row i) and once along the
  first (entry (c, i, j) reads row j), subtracts and takes the absolute value: entry (c, i, j) is the distance between
  rows i and j's projections at feature c, coordinate n.
-/
import Idealize.ShloMosaic.Lib.ValueIdx
import Idealize.ShloMosaic.Lib.Pipeline.Value
import proofs.«132410_j55035710931183_1_alg».proof.Proof.Gap

noncomputable section

open Idealize.ShloMosaic Idealize.ShloMosaic.ValueIdx

namespace Cert.Pairwise

/-- feature × kernel coordinate × row -/
abbrev Proj3 : Shape := ⟨3, ![32, 32, 128]⟩
/-- feature × one kernel coordinate × row -/
abbrev Row3 : Shape := ⟨3, ![32, 1, 128]⟩
/-- feature × row -/
abbrev Mat2 : Shape := ⟨2, ![32, 128]⟩
/-- feature × row × one -/
abbrev Col3 : Shape := ⟨3, ![32, 128, 1]⟩
/-- feature × row × row -/
abbrev Cube3 : Shape := ⟨3, ![32, 128, 128]⟩

/-- A one-coordinate slice at kernel coordinate `n` fits, so `n` is one of the thirty-two. -/
theorem lt_of_slices {n : ℕ} (hs : Proj3.Slices ![0, n, 0] Row3) : n < 32 := by
  have h := hs.2 1
  have h' : n + 1 ≤ 32 := h
  omega

section
variable {α : Type}

/-- The feature × row matrix at kernel coordinate `n`: entry (c, b) is the projections' entry (c, n, b). -/
theorem coord_apply (v : Proj3.Idx → α) (n : ℕ) (hs : Proj3.Slices ![0, n, 0] Row3) (h1 : Row3.ShapeCasts Mat2)
    (c : Fin 32) (b : Fin 128) :
    shapeCast Mat2 (extractStridedSlice Row3 ![0, n, 0] v hs) h1 (ix2 c b) = v (ix3 c ⟨n, lt_of_slices hs⟩ b) := by
  refine (shapeCast_apply _ h1 (ix2 c b) (ix3 c (0 : Fin 1) b) (by
    rw [Shape.rowMajor_val_three, Shape.rowMajor_val_two]
    show (c.val * 1 + 0) * 128 + b.val = c.val * 128 + b.val
    omega)).trans ?_
  exact extractStridedSlice_apply _ v hs _ _ (fun a => match a with
    | ⟨0, _⟩ => by show c.val = 0 + c.val; omega
    | ⟨1, _⟩ => by show n = n + 0; omega
    | ⟨2, _⟩ => by show b.val = 0 + b.val; omega)

/-- A feature × row matrix laid along the second row axis: entry (c, i, j) reads (c, i). -/
theorem along_second (w : Mat2.Idx → α) (h2 : Mat2.ShapeCasts Col3) (h4 : Col3.Broadcasts Cube3) (c : Fin 32) (i j : Fin 128) :
    broadcastTo Cube3 (shapeCast Col3 w h2) h4 (ix3 c i j) = w (ix2 c i) := by
  refine (broadcastTo_apply _ h4 (ix3 c i j) (ix3 c i (0 : Fin 1)) (fun a => match a with
    | ⟨0, _⟩ => by show c.val = if (32 : ℕ) = 1 then 0 else c.val; rw [if_neg (by decide)]
    | ⟨1, _⟩ => by show i.val = if (128 : ℕ) = 1 then 0 else i.val; rw [if_neg (by decide)]
    | ⟨2, _⟩ => by show 0 = if (1 : ℕ) = 1 then 0 else j.val; rw [if_pos rfl])).trans ?_
  exact shapeCast_apply _ h2 _ _ (by
    rw [Shape.rowMajor_val_two, Shape.rowMajor_val_three]
    show c.val * 128 + i.val = (c.val * 128 + i.val) * 1 + 0
    omega)

/-- A feature × row matrix laid along the first row axis: entry (c, i, j) reads (c, j). -/
theorem along_first (w : Mat2.Idx → α) (h3 : Mat2.ShapeCasts Row3) (h5 : Row3.Broadcasts Cube3) (c : Fin 32) (i j : Fin 128) :
    broadcastTo Cube3 (shapeCast Row3 w h3) h5 (ix3 c i j) = w (ix2 c j) := by
  refine (broadcastTo_apply _ h5 (ix3 c i j) (ix3 c (0 : Fin 1) j) (fun a => match a with
    | ⟨0, _⟩ => by show c.val = if (32 : ℕ) = 1 then 0 else c.val; rw [if_neg (by decide)]
    | ⟨1, _⟩ => by show 0 = if (1 : ℕ) = 1 then 0 else i.val; rw [if_pos rfl]
    | ⟨2, _⟩ => by show j.val = if (128 : ℕ) = 1 then 0 else j.val; rw [if_neg (by decide)])).trans ?_
  exact shapeCast_apply _ h3 _ _ (by
    rw [Shape.rowMajor_val_two, Shape.rowMajor_val_three]
    show c.val * 128 + j.val = (c.val * 1 + 0) * 128 + j.val
    omega)

end

/-- One kernel coordinate's term of the pairwise distance: entry (c, i, j) is the distance between the projections of
    rows i and j at feature c and coordinate n. -/
theorem step_apply (v : FVec Ideal Proj3 .f32) (n : ℕ) (hs : Proj3.Slices ![0, n, 0] Row3) (h1 : Row3.ShapeCasts Mat2)
    (h2 : Mat2.ShapeCasts Col3) (h3 : Mat2.ShapeCasts Row3) (h4 : Col3.Broadcasts Cube3) (h5 : Row3.Broadcasts Cube3)
    (c : Fin 32) (i j : Fin 128) :
    absf (subf (broadcastTo Cube3 (shapeCast Col3 (shapeCast Mat2 (extractStridedSlice Row3 ![0, n, 0] v hs) h1) h2) h4)
               (broadcastTo Cube3 (shapeCast Row3 (shapeCast Mat2 (extractStridedSlice Row3 ![0, n, 0] v hs) h1) h3) h5))
        (ix3 c i j)
      = gap (v (ix3 c ⟨n, lt_of_slices hs⟩ i)) (v (ix3 c ⟨n, lt_of_slices hs⟩ j)) := by
  show FloatOps.absf (FloatOps.subf
      (broadcastTo Cube3 (shapeCast Col3 (shapeCast Mat2 (extractStridedSlice Row3 ![0, n, 0] v hs) h1) h2) h4 (ix3 c i j))
      (broadcastTo Cube3 (shapeCast Row3 (shapeCast Mat2 (extractStridedSlice Row3 ![0, n, 0] v hs) h1) h3) h5 (ix3 c i j))) = _
  rw [along_second, along_first, coord_apply, coord_apply]
  rfl

end Cert.Pairwise

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.Spec.lean ====
/-
  The result both programs compute, as one function of the two argument arrays.

  `x` is row × input feature (128 × 512), `T` is input feature × output feature × kernel coordinate (512 × 128 × 32).
  Row b's projection at output feature o, kernel coordinate k, is Σₜ x[b, t] · T[t, o, k]. The closeness of row b to the
  batch at feature o is Σₐ exp(−Σₖ |proj b o k − proj a o k|), less one (the term a = b, whose distance is zero, taken
  off as the literal 1.0). The result (128 × 640) is x in its first 512 columns and the closeness in the last 128.
-/
import Idealize.ShloMosaic.Lib.ValueIdx
import proofs.«132410_j55035710931183_1_alg».proof.Proof.Gap

noncomputable section

open scoped BigOperators
open Idealize.ShloMosaic Idealize.ShloMosaic.ValueIdx

namespace Cert.Pairwise

/-- row × input feature -/
abbrev XS : Shape := ⟨2, ![128, 512]⟩
/-- input feature × output feature × kernel coordinate -/
abbrev TS : Shape := ⟨3, ![512, 128, 32]⟩
/-- row × (input features, then output features) -/
abbrev OS : Shape := ⟨2, ![128, 640]⟩

/-- The literal the programs subtract: the word of 1.0, kept as a word on both sides. -/
abbrev oneWord : EReal := Ideal.ofBits .f32 0x3F800000#32

/-- Row `b`'s projection at output feature `o`, kernel coordinate `k`. -/
def proj (x : FVec Ideal XS .f32) (T : FVec Ideal TS .f32) (b o : Fin 128) (k : Fin 32) : EReal :=
  ∑ t : Fin 512, x (ix2 b t) * T (ix3 t o k)

/-- Row `b`'s closeness to the batch at output feature `o`. -/
def closeness (x : FVec Ideal XS .f32) (T : FVec Ideal TS .f32) (b o : Fin 128) : EReal :=
  (∑ a : Fin 128, Ideal.exp (-(∑ k : Fin 32, gap (proj x T b o k) (proj x T a o k)))) - oneWord

/-- The result: `x` beside the closeness. -/
def result (x : FVec Ideal XS .f32) (T : FVec Ideal TS .f32) : FVec Ideal OS .f32 := fun i =>
  if h : (i 1).val < 512 then x (ix2 (i 0) ⟨(i 1).val, h⟩)
  else closeness x T (i 0) ⟨(i 1).val - 512, by have := idx2_lt1 i; omega⟩

end Cert.Pairwise

end
-- ==== Proof.KernelBlock.lean ====
/-
  What one grid point stores, entry by entry.

  The point holds the whole first operand (row × input feature) and a chunk of 1024 columns of the second — 32 output
  features of 32 kernel coordinates each. It multiplies them, re-lays the product as feature × kernel coordinate × row,
  adds up over the 32 kernel coordinates the distance between rows i and j, and stores, at (feature c, row j), the sum
  over rows i of exp of minus that distance, less one.
-/
import proofs.«132410_j55035710931183_1_alg».proof.Proof.Gen.KernelIdeal.Skeleton
import proofs.«132410_j55035710931183_1_alg».proof.Proof.PairStep
import proofs.«132410_j55035710931183_1_alg».proof.Proof.LibPlainDot
import proofs.«132410_j55035710931183_1_alg».proof.Proof.Spec
import Idealize.ShloMosaic.PureOps.Ideal.Laws

set_option maxRecDepth 16384

noncomputable section

open scoped BigOperators
open Idealize.ShloMosaic Idealize.ShloMosaic.TcCoe Idealize.ShloMosaic.ValueIdx
open Cert.KernelIdeal Cert.KernelIdeal.Gen

namespace Cert.Pairwise

/-- Column 32c + k of the chunk: feature c, kernel coordinate k. -/
def chunkCol (c k : Fin 32) : Fin 1024 := ⟨c.val * 32 + k.val, by have := c.isLt; have := k.isLt; omega⟩

/-- The chunk's projections: entry (c, k, b) is row b of the first operand against column 32c + k of the chunk. -/
theorem chunkProj_apply (x0 : Vec Ideal S128x512 .bf16) (x1 : Vec Ideal S512x1024 .bf16) (c k : Fin 32) (b : Fin 128) :
    k0_pay2 x0 x1 (ix3 c k b) = ∑ t : Fin 512, x0 (ix2 b t) * x1 (ix2 t (chunkCol c k)) := by
  unfold k0_pay2
  dsimp only
  refine (shapeCast_apply _ _ (ix3 c k b) (ix2 (chunkCol c k) b) (by
    rw [Shape.rowMajor_val_two, Shape.rowMajor_val_three]
    show (c.val * 32 + k.val) * 128 + b.val = (c.val * 32 + k.val) * 128 + b.val
    rfl)).trans ?_
  refine (transpose_apply _ _ _ _ (ix2 b (chunkCol c k)) (fun a => match a with | ⟨0, _⟩ => rfl | ⟨1, _⟩ => rfl)).trans ?_
  rw [shapeCast_self, shapeCast_self]
  exact PlainDot.matmul_zero_apply 128 512 1024 none x0 x1 b (chunkCol c k)

/-- The zero the body starts its running sum from, and subtracts from, is the extended real 0. -/
theorem zero_word : (Scalar.ofBits .f32 0x00000000#32 : Ideal .f32) = 0 := Ideal.ofBits_zero_f32

/-- The running sum after all thirty-two kernel coordinates: entry (c, i, j) is the distance between rows i and j at
    feature c, summed over the kernel coordinates. -/
theorem dist_apply (x0 : Vec Ideal S128x512 .bf16) (x1 : Vec Ideal S512x1024 .bf16) (c : Fin 32) (i j : Fin 128) :
    addf (k0_pay12 (k0_pay2 x0 x1) (k0_pay11 (k0_pay2 x0 x1) (k0_pay8 (k0_pay2 x0 x1) (k0_pay4 (k0_pay2 x0 x1) (k0_pay3 x0 x1)) (k0_pay6 (k0_pay2 x0 x1)) (k0_pay7 (k0_pay2 x0 x1))) (k0_pay9 (k0_pay2 x0 x1)) (k0_pay10 (k0_pay2 x0 x1))))
        (absf (subf (k0_pay14 (k0_pay2 x0 x1)) (k0_pay15 (k0_pay2 x0 x1)))) (ix3 c i j)
      = ∑ k : Fin 32, gap (k0_pay2 x0 x1 (ix3 c k i)) (k0_pay2 x0 x1 (ix3 c k j)) := by
  unfold k0_pay3
  generalize k0_pay2 x0 x1 = v
  simp only [k0_pay4, k0_pay5, k0_pay6, k0_pay7, k0_pay8, k0_pay9, k0_pay10, k0_pay11, k0_pay12, k0_pay13, k0_pay14, k0_pay15]
  simp only [addf_apply, step_apply, broadcast_apply, zero_word]
  exact sum32 (fun k => gap (v (ix3 c k i)) (v (ix3 c k j)))

/-- An exponential of a vector, at an entry, is the exponential of the entry. -/
theorem exp_at {s : Shape} (a : FVec Ideal s .f32) (i : s.Idx) : exp a i = Ideal.exp (a i) := rfl

/-- WHAT THE POINT STORES at (feature c, row j): the sum over rows i of exp of minus the summed distance between rows i
    and j, less the literal one. The sum over rows is the body's reduction over the middle axis; the minus sign is the
    body's subtraction from zero. -/
theorem block_apply (x0 : Vec Ideal S128x512 .bf16) (x1 : Vec Ideal S512x1024 .bf16) (c : Fin 32) (j : Fin 128) :
    k0_pay1 (k0_pay12 (k0_pay2 x0 x1) (k0_pay11 (k0_pay2 x0 x1) (k0_pay8 (k0_pay2 x0 x1) (k0_pay4 (k0_pay2 x0 x1) (k0_pay3 x0 x1)) (k0_pay6 (k0_pay2 x0 x1)) (k0_pay7 (k0_pay2 x0 x1))) (k0_pay9 (k0_pay2 x0 x1)) (k0_pay10 (k0_pay2 x0 x1))))
        (k0_pay14 (k0_pay2 x0 x1)) (k0_pay15 (k0_pay2 x0 x1)) (ix2 c j)
      = (∑ i : Fin 128, Ideal.exp (-(∑ k : Fin 32, gap (k0_pay2 x0 x1 (ix3 c k i)) (k0_pay2 x0 x1 (ix3 c k j))))) - oneWord := by
  unfold k0_pay1
  dsimp only
  rw [subf_apply, broadcast_apply]
  refine congrArg₂ (· - ·) ((Ideal.multiReduction_add_single _ _ reduces_S32x128x128_S32x128 _ _ (ix2 c j)).trans
    (Finset.sum_congr rfl fun (i : Fin 128) _ => ?_)) rfl
  have hl : (reduces_S32x128x128_S32x128).lift (ix2 c j) i = ix3 c i j := by
    funext a
    match a with
    | ⟨0, _⟩ => rfl
    | ⟨1, _⟩ => rfl
    | ⟨2, _⟩ => rfl
  refine (congrArg (exp _) hl).trans ?_
  rw [exp_at, subf_apply, broadcast_apply, dist_apply]
  simp only [Ideal.ofBits_def, Ideal.ofBits_zero_f32, zero_sub]

end Cert.Pairwise

end
-- ==== Proof.KernelArray.lean ====
/-
  From the blocks to the kernel program's result.

  The grid has four points; point t works on output features 32t … 32t + 31. Its first window is the whole first
  operand (x, narrowed, which at the ideal values changes nothing), its second the 1024 columns 1024t … of T flattened
  to 512 × 4096 (column 32·o + k is T's (·, o, k)), and it writes rows 32t … of the feature × row array. So the array
  the region leaves is, at (o, j), the closeness of row j at feature o; the lines after the region transpose it and put
  it beside x.
-/
import proofs.«132410_j55035710931183_1_alg».proof.Proof.Gen.KernelIdeal.Frame
import proofs.«132410_j55035710931183_1_alg».proof.Proof.KernelBlock
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Cert.KernelIdeal Cert.KernelIdeal.Gen

namespace Cert.Pairwise

variable (m : (ℓ : Loc nD τ sig) → Buf (Elt Ideal) ℓ) (ρ : Dev nD → PrngReg)

/-- The first argument as launched: row × input feature. -/
abbrev xArg (c : Dev nD) : FVec Ideal XS .f32 := m ((c : Thread nD τ).loc main_arg0)
/-- The second argument as launched: input feature × output feature × kernel coordinate. -/
abbrev tArg (c : Dev nD) : FVec Ideal TS .f32 := m ((c : Thread nD τ).loc main_arg1)

theorem hz : (![0, 0] : Fin 2 → Nat) = fun _ => 0 := funext fun a => by fin_cases a <;> rfl

/-- The printed index maps over the grid: the first window stays put, the second moves along the columns with the
    point, the output along the rows. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0 :=
  (by decide +kernel : ∀ t : Fin grid0.N, _)

theorem point_lt (t : Fin cfg0.N) : t.val < 4 := lt_of_lt_of_eq t.isLt N_0

/-- Output feature 32t + p: feature p of point t's chunk. -/
def feat (t : Fin cfg0.N) (p : Fin 32) : Fin 128 := ⟨t.val * 32 + p.val, by have := point_lt t; have := p.isLt; omega⟩

/-- The first window's array, as the region finds it, is x (the narrowing is the identity at the ideal values). -/
theorem firstOperand (c : Dev nD) : (V m c main_v0 : S128x512.Idx → EReal) = xArg m c := by
  show StableHlo.after hostOps0 (fun b => m (c, b)) (Proc.devRef .tc main_v0) = _
  after_results
  rfl

/-- The second window's array, as the region finds it, is T flattened: entry (s, q) is T's (s, q / 32, q % 32). -/
theorem secondOperand (c : Dev nD) (s : Fin 512) (q : Fin 4096) :
    (V m c main_v2 : S512x4096.Idx → EReal) (ix2 s q)
      = tArg m c (ix3 s ⟨q.val / 32, by have := q.isLt; omega⟩ ⟨q.val % 32, by omega⟩) := by
  have e : (V m c main_v2 : S512x4096.Idx → EReal)
      = shapeCast S512x4096 (tArg m c) shapeCasts_S512x128x32_S512x4096 := by
    show StableHlo.after hostOps0 (fun b => m (c, b)) (Proc.devRef .tc main_v2) = _
    after_results
    rfl
  rw [e]
  have hs := s.isLt
  have hq := q.isLt
  exact shapeCast_apply _ _ _ _ (by
    rw [Shape.rowMajor_val_three, Shape.rowMajor_val_two]
    show (s.val * 128 + q.val / 32) * 32 + q.val % 32 = s.val * 4096 + q.val
    omega)

/-- Point t's chunk projections are the projections at its output features: entry (p, k, b) is row b's projection at
    feature 32t + p, coordinate k. -/
theorem projBlock (c : Dev nD) (t : Fin cfg0.N) (p k : Fin 32) (b : Fin 128) :
    k0_pay2 (iblk m c 0 t) (iblk m c 1 t) (ix3 p k b) = proj (xArg m c) (tArg m c) b (feat t p) k := by
  refine (chunkProj_apply (iblk m c 0 t) (iblk m c 1 t) p k b).trans ?_
  unfold proj
  obtain ⟨e00, e01, e10, e11, e20, e21⟩ := idx_facts t
  have ht := point_lt t
  have hp := p.isLt
  have hk := k.isLt
  refine Finset.sum_congr rfl fun s _ => ?_
  have h0 : iblk m c 0 t (ix2 b s) = xArg m c (ix2 b s) := by
    show (V m c main_v0 : S128x512.Idx → EReal) (((cfg0.win 0).blk t).view.emb (ix2 b s)) = _
    rw [firstOperand]
    refine congrArg (xArg m c) (funext fun a => Fin.ext ?_)
    match a with
    | ⟨0, _⟩ => show win0_0.index t (0 : Fin 2) * 128 + 1 * b.val = b.val; omega
    | ⟨1, _⟩ => show win0_0.index t (1 : Fin 2) * 512 + 1 * s.val = s.val; omega
  have h1 : iblk m c 1 t (ix2 s (chunkCol p k)) = tArg m c (ix3 s (feat t p) k) := by
    show (V m c main_v2 : S512x4096.Idx → EReal) (((cfg0.win 1).blk t).view.emb (ix2 s (chunkCol p k))) = _
    have hemb : ((cfg0.win 1).blk t).view.emb (ix2 s (chunkCol p k))
        = ix2 s (⟨t.val * 1024 + (p.val * 32 + k.val), by omega⟩ : Fin 4096) := by
      funext a
      apply Fin.ext
      match a with
      | ⟨0, _⟩ => show win0_1.index t (0 : Fin 2) * 512 + 1 * s.val = s.val; omega
      | ⟨1, _⟩ => show win0_1.index t (1 : Fin 2) * 1024 + 1 * (p.val * 32 + k.val) = t.val * 1024 + (p.val * 32 + k.val); omega
    rw [hemb, secondOperand]
    refine congrArg (tArg m c) (funext fun a => Fin.ext ?_)
    match a with
    | ⟨0, _⟩ => rfl
    | ⟨1, _⟩ => show (t.val * 1024 + (p.val * 32 + k.val)) / 32 = t.val * 32 + p.val; omega
    | ⟨2, _⟩ => show (t.val * 1024 + (p.val * 32 + k.val)) % 32 = k.val; omega
  rw [h0, h1]

/-- The array the region leaves, feature × row: at (o, j) the closeness of row j at feature o. -/
def closeT (x : FVec Ideal XS .f32) (T : FVec Ideal TS .f32) : FVec Ideal S128x128 .f32 := fun y => closeness x T (y 1) (y 0)

/-- WHAT POINT t WRITES BACK is its block of that array. The body sums, over rows i, exp of minus the distance from
    row i to row j; the array is stated with the distance from row j to row i: the distance is symmetric. -/
theorem flushed_eq (c : Dev nD) (t : Fin cfg0.N) :
    (dats m 0 c).flushed 2 t = ((cfg0.win 2).blk t).view.read (Elt Ideal) (closeT (xArg m c) (tArg m c)) := by
  show (cfg0.win 2).cut (grid0.coords t) ((dats m 0 c).after 2 t) = _
  rw [after0_2]
  unfold out0_2
  rw [View.canon_unit_zero hz]
  simp only [View.ld_unit_zero (S := S128x512) hz, View.ld_unit_zero (S := S512x1024) hz]
  obtain ⟨e00, e01, e10, e11, e20, e21⟩ := idx_facts t
  funext y
  obtain ⟨p, q, rfl⟩ : ∃ (p : Fin 32) (q : Fin 128), y = ix2 p q := ⟨y 0, y 1, eq_ix2 y⟩
  refine (block_apply (iblk m c 0 t) (iblk m c 1 t) p q).trans ?_
  show _ = closeT (xArg m c) (tArg m c) (((cfg0.win 2).blk t).view.emb (ix2 p q))
  have hemb : ((cfg0.win 2).blk t).view.emb (ix2 p q) = ix2 (feat t p) q := by
    funext a
    apply Fin.ext
    match a with
    | ⟨0, _⟩ => show win0_2.index t (0 : Fin 2) * 32 + 1 * p.val = t.val * 32 + p.val; omega
    | ⟨1, _⟩ => show win0_2.index t (1 : Fin 2) * 128 + 1 * q.val = q.val; omega
  rw [hemb]
  unfold closeT closeness
  refine congrArg₂ (· - ·) (Finset.sum_congr rfl fun i _ => ?_) rfl
  refine congrArg (fun s => Ideal.exp (-s)) (Finset.sum_congr rfl fun k _ => ?_)
  rw [projBlock, projBlock, gap_comm]

/-- An index of the array is in point t's block iff each coordinate is in the block's range on its axis. -/
theorem mem_blk (t : Fin cfg0.N) (i : S128x128.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v3).slice (win0_2.rect t)).set ↔ _
  rw [View.set_slice_whole, Rect.mem_set_unit]
  exact Iff.rfl

/-- Every entry of the array is written: row o of the array is in the block of point o / 32. -/
theorem cover (i : S128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  have hN : (i 0).val / 32 < cfg0.N := by rw [show cfg0.N = 4 from N_0]; omega
  obtain ⟨e00, e01, e10, e11, e20, e21⟩ := idx_facts ⟨(i 0).val / 32, hN⟩
  refine ⟨⟨(i 0).val / 32, hN⟩, flush0_2 _, ?_⟩
  rw [mem_blk]
  intro a
  match a with
  | ⟨0, _⟩ =>
    show win0_2.index ⟨(i 0).val / 32, hN⟩ (0 : Fin 2) * 32 ≤ (i 0).val ∧ (i 0).val < win0_2.index ⟨(i 0).val / 32, hN⟩ (0 : Fin 2) * 32 + 32
    have : (⟨(i 0).val / 32, hN⟩ : Fin cfg0.N).val = (i 0).val / 32 := rfl
    omega
  | ⟨1, _⟩ =>
    show win0_2.index ⟨(i 0).val / 32, hN⟩ (1 : Fin 2) * 128 ≤ (i 1).val ∧ (i 1).val < win0_2.index ⟨(i 0).val / 32, hN⟩ (1 : Fin 2) * 128 + 128
    omega

/-- THE ARRAY the region leaves. -/
theorem final (c : Dev nD) : (dats m 0 c).arrAt 2 cfg0.N = closeT (xArg m c) (tArg m c) :=
  (dats m 0 c).arrAt_eq_of_cover 2 _ (fun t _ => flushed_eq m c t) cover

omit m in
/-- x beside the feature × row array transposed is the result: a column below 512 reads x; column 512 + o of row b reads
    the transposed array at (b, o), the array at (o, b), the closeness of row b at feature o. -/
theorem beside_eq (x : FVec Ideal XS .f32) (T : FVec Ideal TS .f32) (h1 : S128x128.Transposes [1, 0] S128x128)
    (h2 : Shape.Concatenates [S128x512, S128x128] S128x640 1) :
    concatenate S128x640 1 [⟨S128x512, x⟩, ⟨S128x128, transpose S128x128 [1, 0] (closeT x T) h1⟩] h2 = result x T := by
  funext i
  unfold result
  have hi := idx2_lt1 i
  by_cases h : (i 1).val < 512
  · rw [dif_pos h]
    exact concatenate_pair_apply_left 1 x _ _ i rfl (ix2 (i 0) ⟨(i 1).val, h⟩)
      (fun b => match b with | ⟨0, _⟩ => rfl | ⟨1, _⟩ => rfl)
  · rw [dif_neg h]
    refine (concatenate_pair_apply_right 1 x (transpose S128x128 [1, 0] (closeT x T) h1) _ i rfl rfl
      (ix2 (i 0) ⟨(i 1).val - 512, by omega⟩) (fun b hb => ?_) ?_).trans ?_
    · match b with
      | ⟨0, _⟩ => rfl
      | ⟨1, _⟩ => exact absurd rfl hb
    · show (i 1).val - 512 + 512 = (i 1).val
      omega
    · exact transpose_apply _ _ h1 _ (ix2 ⟨(i 1).val - 512, by omega⟩ (i 0))
        (fun b => match b with | ⟨0, _⟩ => rfl | ⟨1, _⟩ => rfl)

/-- The lines after the region: the array transposed to row × feature, beside x. -/
theorem tail_eq (c : Dev nD) :
    Pipeline.afterTail₀ cfgs (dats m) 0 (V0 m) [hostOps1] c main_v5 = result (xArg m c) (tArg m c) := by
  unfold Pipeline.afterTail₀
  show StableHlo.after hostOps1 _ (Proc.devRef .tc main_v5) = _
  after_results
  have hx : Pipeline.withArrays (cfgs 0).spec c (V0 m c) (fun w => (dats m 0 c).arrAt w (cfgs 0).N) (Proc.devRef .tc main_arg0)
      = xArg m c :=
    (Pipeline.withArrays_of_ne _ c (V0 m c) _ main_arg0 (by exact (by decide : ∀ w, Pipeline.arrRef spec0 w ≠ main_arg0))).trans
      (V_main_arg0 m c)
  have hT : Pipeline.withArrays (cfgs 0).spec c (V0 m c) (fun w => (dats m 0 c).arrAt w (cfgs 0).N) (Proc.devRef .tc main_v3)
      = closeT (xArg m c) (tArg m c) :=
    (Pipeline.withArrays_arr spec0 launch0.win.arr_inj c _ _ 2).trans (final m c)
  rw [hx, hT]
  exact beside_eq _ _ _ _

/-- THE KERNEL PROGRAM'S RUN, read: every weakly fair execution ends with the result buffer at `result` of the
    arguments as launched, and the arguments unchanged. -/
theorem kernel_run : θ_run defs (onTc (τ := τ) (main (F := Ideal))) ⟨m, fun _ => 0, ρ⟩ fun r => ∀ c : Dev nD,
      r.2.mem ((c.tc : Thread nD τ).loc main_v5) = result (xArg m c) (tArg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Pairwise

end
-- ==== Proof.RefValue.lean ====
/-
  The reference's result is `result` of its arguments.

  The reference multiplies x by T flattened to 512 × 4096 and reshapes the product to row × output feature × kernel
  coordinate: entry (b, o, k) is row b's projection. It lays that array once along a new first axis and once along a new
  second axis, subtracts, takes absolute values and sums over the kernel coordinate: entry (a, b, o) is the distance
  between rows b and a at feature o. Negated, exponentiated and summed over a, less one, it is the closeness of row b.
-/
import proofs.«132410_j55035710931183_1_alg».proof.Proof.Gen.ReferenceIdeal.Read
import proofs.«132410_j55035710931183_1_alg».proof.Proof.Spec
import Idealize.ShloMosaic.Lib.Pipeline.Value

noncomputable section

open scoped BigOperators
open Idealize.ShloMosaic Idealize.ShloMosaic.TcCoe Idealize.ShloMosaic.ValueIdx
open Cert.ReferenceIdeal Cert.ReferenceIdeal.Read

namespace Cert.Pairwise

variable (x : (⟨S128x512, .f32⟩ : BufTy).Contents (Elt Ideal)) (T : (⟨S512x128x32, .f32⟩ : BufTy).Contents (Elt Ideal))

/-- The reshaped product at (b, o, k) is row b's projection at feature o, coordinate k: position (b, 32·o + k) of the
    128 × 4096 product, whose column 32·o + k is T's (·, o, k). -/
theorem ref_proj (b o : Fin 128) (k : Fin 32) : val_main_v2 (F := Ideal) x T (ix3 b o k) = proj x T b o k := by
  rw [val_main_v2_apply, val_main_v1_apply]
  unfold proj
  refine Finset.sum_congr rfl fun t _ => ?_
  rw [val_main_v0_apply]
  have hb := b.isLt
  have ho := o.isLt
  have hk := k.isLt
  have ht := t.isLt
  have e1 : lidx_main_v1 (idx_main_v2 (ix3 b o k)) t = ix2 b t := by
    funext a
    match a with
    | ⟨0, _⟩ => apply Fin.ext; show ((b.val * 128 + o.val) * 32 + k.val) / 4096 = b.val; omega
    | ⟨1, _⟩ => rfl
  have e2 : idx_main_v0 (ridx_main_v1 (idx_main_v2 (ix3 b o k)) t) = ix3 t o k := by
    funext a
    match a with
    | ⟨0, _⟩ => apply Fin.ext; show (t.val * 4096 + ((b.val * 128 + o.val) * 32 + k.val) % 4096) / 4096 = t.val; omega
    | ⟨1, _⟩ => apply Fin.ext; show (t.val * 4096 + ((b.val * 128 + o.val) * 32 + k.val) % 4096) / 32 % 128 = o.val; omega
    | ⟨2, _⟩ => apply Fin.ext; show (t.val * 4096 + ((b.val * 128 + o.val) * 32 + k.val) % 4096) % 32 = k.val; omega
  rw [e1, e2]

/-- The stage before the concatenation, at (b, o), is the closeness of row b at feature o. -/
theorem ref_closeness (b o : Fin 128) : val_main_v14 (F := Ideal) x T (ix2 b o) = closeness x T b o := by
  rw [val_main_v14_apply, val_main_v12_apply, val_main_v13_apply, val_main_cst_1_apply, val_main_cst_0_apply]
  unfold closeness
  simp only [Ideal.ofBits_def, Ideal.ofBits_zero_f32, zero_add, Ideal.subf_def]
  refine congrArg₂ (· - ·) (Finset.sum_congr rfl fun a _ => ?_) rfl
  rw [val_main_v11_apply, val_main_v10_apply, val_main_v9_apply, val_main_cst_apply]
  simp only [Ideal.ofBits_def, Ideal.ofBits_zero_f32, zero_add, Ideal.hostUnary_exp_def, Ideal.hostNegf_def, Ideal.negf_def]
  refine congrArg (fun s => Ideal.exp (-s)) (Finset.sum_congr rfl fun k _ => ?_)
  rw [val_main_v8_apply, val_main_v7_apply, val_main_v5_apply, val_main_v6_apply, val_main_v3_apply, val_main_v4_apply]
  have e5 : idx_main_v3 (idx_main_v5 (idx_main_v9 (idx_main_v12 (ix2 b o) a) k)) = ix3 b o k := by
    funext d
    match d with
    | ⟨0, _⟩ => rfl
    | ⟨1, _⟩ => rfl
    | ⟨2, _⟩ => rfl
  have e6 : idx_main_v4 (idx_main_v6 (idx_main_v9 (idx_main_v12 (ix2 b o) a) k)) = ix3 a o k := by
    funext d
    match d with
    | ⟨0, _⟩ => rfl
    | ⟨1, _⟩ => rfl
    | ⟨2, _⟩ => rfl
  rw [e5, e6, ref_proj, ref_proj]
  rfl

/-- The reference's result is `result` of its arguments: a column below 512 reads x, a later one the closeness. -/
theorem ref_result : val_main_v15 (F := Ideal) x T = result x T := by
  funext i
  unfold val_main_v15 result
  have hi := idx2_lt1 i
  by_cases h : (i 1).val < 512
  · rw [dif_pos h]
    exact concatenate_pair_apply_left 1 x _ _ i rfl (ix2 (i 0) ⟨(i 1).val, h⟩)
      (fun b => match b with | ⟨0, _⟩ => rfl | ⟨1, _⟩ => rfl)
  · rw [dif_neg h]
    refine (concatenate_pair_apply_right 1 x (val_main_v14 (F := Ideal) x T) _ i rfl rfl
      (ix2 (i 0) ⟨(i 1).val - 512, by omega⟩) (fun b hb => ?_) ?_).trans ?_
    · match b with
      | ⟨0, _⟩ => rfl
      | ⟨1, _⟩ => exact absurd rfl hb
    · show (i 1).val - 512 + 512 = (i 1).val
      omega
    · exact ref_closeness x T (i 0) _

end Cert.Pairwise

end
-- ==== Proof.lean ====
/-
  Minibatch discrimination: x (128 rows × 512 input features) is projected through T (512 × 128 output features × 32
  kernel coordinates); for every output feature the rows are compared pairwise by the sum over the kernel coordinates of
  the absolute differences of their projections, and row b's output at feature o is Σₐ exp(−distance(b, a)) − 1; the
  result is x with these 128 columns appended.

  The kernel program works four chunks of 32 output features: each grid point multiplies x by 1024 columns of T
  flattened, re-lays the product with the rows last, accumulates the thirty-two coordinates' distances one after the
  other, and writes a feature × row block; the program then transposes and appends. The reference does the same with
  one product and whole-array broadcasts. On the extended reals the two agree entry by entry: the products are the same
  finite sums; the kernel's running sum from zero is the reference's sum over the coordinate axis (Proof/Gap.lean
  `sum32`); the kernel subtracts row j from row i where the reference subtracts the other way, and the absolute
  difference is symmetric, at the infinities too (`gap_comm`), so the input's finiteness is never used; the kernel's
  0 − d is the reference's −d; both subtract the same word for 1.0.

  Proof/Spec.lean states the common result `result`; Proof/RefValue.lean reads the reference's run as it;
  Proof/PairStep.lean, Proof/KernelBlock.lean and Proof/KernelArray.lean read the kernel program's run as it (one
  coordinate's term at an entry, a grid point's block, the array and the lines after the region). Nothing was rewritten
  by the idealization, so the preservation claim is the trivial one.
-/
import proofs.«132410_j55035710931183_1_alg».proof.Defs
import proofs.«132410_j55035710931183_1_alg».proof.Proof.Gen.Kernel
import proofs.«132410_j55035710931183_1_alg».proof.Proof.Gen.Kernel.Skeleton
import proofs.«132410_j55035710931183_1_alg».proof.Proof.Gen.Kernel.Launch
import proofs.«132410_j55035710931183_1_alg».proof.Proof.Gen.Kernel.Points
import proofs.«132410_j55035710931183_1_alg».proof.Proof.Gen.Kernel.Frame
import proofs.«132410_j55035710931183_1_alg».proof.Proof.Gen.KernelIdeal
import proofs.«132410_j55035710931183_1_alg».proof.Proof.Gen.KernelIdeal.Skeleton
import proofs.«132410_j55035710931183_1_alg».proof.Proof.Gen.KernelIdeal.Launch
import proofs.«132410_j55035710931183_1_alg».proof.Proof.Gen.KernelIdeal.Points
import proofs.«132410_j55035710931183_1_alg».proof.Proof.Gen.KernelIdeal.Frame
import proofs.«132410_j55035710931183_1_alg».proof.Proof.Gen.ReferenceIdeal
import proofs.«132410_j55035710931183_1_alg».proof.Proof.Gen.ReferenceIdeal.Run
import proofs.«132410_j55035710931183_1_alg».proof.Proof.Gen.ReferenceIdeal.Read
import proofs.«132410_j55035710931183_1_alg».proof.Proof.Gen.Pre_finite_inputs
import proofs.«132410_j55035710931183_1_alg».proof.Proof.KernelArray
import proofs.«132410_j55035710931183_1_alg».proof.Proof.RefValue
import Idealize.ShloMosaic.Adequacy
import Idealize.ShloMosaic.Init

noncomputable section

namespace Cert.Proof

open Idealize.ShloMosaic Idealize.SL.Sem Cert.Kernel

/-- Both idealized programs, from memories that agree on x and T, end with the result buffer at `result` of the
    arguments: the kernel program by its run read block by block (`kernel_run`), the reference by its run read stage
    by stage (`ref_result`). -/
theorem algebraic [Cert.Kernel.Facts] [Cert.KernelIdeal.Facts] [Cert.ReferenceIdeal.Facts] [Cert.Pre_finite_inputs.Facts] :
    Cert.algebraic_KernelIdeal_ReferenceIdeal := by
  intro m ρ m' ρ' _ hagree
  refine ⟨fun c => Cert.Pairwise.result (Cert.Pairwise.xArg m c) (Cert.Pairwise.tArg m c), Cert.Pairwise.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.Pairwise.ref_result, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
